-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S2x100000x60x3 : S_.BroadcastsInDim S2x100000x60x3 (![] : Fin 0 → Fin S2x100000x60x3.rank)
  reducesTo_S2x100000x60x3_S_d0_1_2_3 : S2x100000x60x3.ReducesTo [0, 1, 2, 3] S_
  bcast_S_S2x100000x60 : S_.BroadcastsInDim S2x100000x60 (![] : Fin 0 → Fin S2x100000x60.rank)
  reducesTo_S2x100000x60_S_d0_1_2 : S2x100000x60.ReducesTo [0, 1, 2] S_

variable [Facts]

def fn_part1 {F : FTy → Type} [FloatOps F] (main_v13 : IVec S_ 1) (main_v16 : IVec S2x100000x60 1) : IVec S_ 1 :=
  let main_c_5 : IVec S_ 1 := constantI S_ 1 1#1
  let main_v17 : IVec S_ 1 := (fun x v => Host.reduce IntOp.andi x v reducesTo_S2x100000x60_S_d0_1_2 h_S_) main_v16 main_c_5
  let main_v18 : IVec S_ 1 := andi main_v13 main_v17
  main_v18

def fn {F : FTy → Type} [FloatOps F] (main_arg0 : FVec F S2x100000x3 .f32) (main_arg1 : FVec F S2x100000x60x3 .f32) (main_arg2 : FVec F S2x100000x60x3 .f32) (main_arg3 : FVec F S2x100000x60 .f32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x60x3 .f32 := Host.absf main_arg1
  let main_cst_0 : FVec F S_ .f32 := constant S_ .f32 0x7F800000#32
  let main_v5 : FVec F S2x100000x60x3 .f32 := broadcastInDim S2x100000x60x3 ![] bcast_S_S2x100000x60x3 main_cst_0
  let main_v6 : IVec S2x100000x60x3 1 := cmpf .olt main_v4 main_v5
  let main_c_1 : IVec S_ 1 := constantI S_ 1 1#1
  let main_v7 : IVec S_ 1 := (fun x v => Host.reduce IntOp.andi x v reducesTo_S2x100000x60x3_S_d0_1_2_3 h_S_) main_v6 main_c_1
  let main_v8 : IVec S_ 1 := andi main_v3 main_v7
  let main_v9 : FVec F S2x100000x60x3 .f32 := Host.absf main_arg2
  let main_cst_2 : FVec F S_ .f32 := constant S_ .f32 0x7F800000#32
  let main_v10 : FVec F S2x100000x60x3 .f32 := broadcastInDim S2x100000x60x3 ![] bcast_S_S2x100000x60x3 main_cst_2
  let main_v11 : IVec S2x100000x60x3 1 := cmpf .olt main_v9 main_v10
  let main_c_3 : IVec S_ 1 := constantI S_ 1 1#1
  let main_v12 : IVec S_ 1 := (fun x v => Host.reduce IntOp.andi x v reducesTo_S2x100000x60x3_S_d0_1_2_3 h_S_) main_v11 main_c_3
  let main_v13 : IVec S_ 1 := andi main_v8 main_v12
  let main_v14 : FVec F S2x100000x60 .f32 := Host.absf main_arg3
  let main_cst_4 : FVec F S_ .f32 := constant S_ .f32 0x7F800000#32
  let main_v15 : FVec F S2x100000x60 .f32 := broadcastInDim S2x100000x60 ![] bcast_S_S2x100000x60 main_cst_4
  let main_v16 : IVec S2x100000x60 1 := cmpf .olt main_v14 main_v15
  fn_part1 (F := F) main_v13 main_v16
-- ==== Kernel.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S2x100000x3x60 : Shape := ⟨4, ![2, 100000, 3, 60]⟩
abbrev S2x1x1 : Shape := ⟨3, ![2, 1, 1]⟩
abbrev S1x1000x3 : Shape := ⟨3, ![1, 1000, 3]⟩
abbrev S1x1000x3x60 : Shape := ⟨4, ![1, 1000, 3, 60]⟩
abbrev S1x1000x60 : Shape := ⟨3, ![1, 1000, 60]⟩
abbrev S1x1x1 : Shape := ⟨3, ![1, 1, 1]⟩
abbrev S1x1 : Shape := ⟨2, ![1, 1]⟩
abbrev S1000x3 : Shape := ⟨2, ![1000, 3]⟩
abbrev S1000x3x60 : Shape := ⟨3, ![1000, 3, 60]⟩
abbrev S1000x60 : Shape := ⟨2, ![1000, 60]⟩
abbrev S1000x3x1 : Shape := ⟨3, ![1000, 3, 1]⟩
abbrev S1000 : Shape := ⟨1, ![1000]⟩
abbrev S1000x1 : Shape := ⟨2, ![1000, 1]⟩
abbrev S1 : Shape := ⟨1, ![1]⟩
abbrev S2 : Shape := ⟨1, ![2]⟩

abbrev nBuf : Space → Nat
  | .hbm => 8
  | .vmem => 11
  | .smem => 0
  | _ => 0

abbrev bufTy : (tb : Table) → Fin (tcTables nBuf tb) → BufTy
  | .hbm, ⟨0, _⟩ => ⟨S2x100000x3, .f32⟩
  | .hbm, ⟨1, _⟩ => ⟨S2x100000x60x3, .f32⟩
  | .hbm, ⟨2, _⟩ => ⟨S2x100000x60x3, .f32⟩
  | .hbm, ⟨3, _⟩ => ⟨S2x100000x60, .f32⟩
  | .hbm, ⟨4, _⟩ => ⟨S2x100000x3x60, .f32⟩
  | .hbm, ⟨5, _⟩ => ⟨S2x100000x3x60, .f32⟩
  | .hbm, ⟨6, _⟩ => ⟨S2x1x1, .f32⟩
  | .hbm, ⟨7, _⟩ => ⟨S2, .f32⟩
  | .local _ .vmem, ⟨0, _⟩ => ⟨S1x1000x3, .f32⟩
  | .local _ .vmem, ⟨1, _⟩ => ⟨S1x1000x3, .f32⟩
  | .local _ .vmem, ⟨2, _⟩ => ⟨S1x1000x3x60, .f32⟩
  | .local _ .vmem, ⟨3, _⟩ => ⟨S1x1000x3x60, .f32⟩
  | .local _ .vmem, ⟨4, _⟩ => ⟨S1x1000x3x60, .f32⟩
  | .local _ .vmem, ⟨5, _⟩ => ⟨S1x1000x3x60, .f32⟩
  | .local _ .vmem, ⟨6, _⟩ => ⟨S1x1000x60, .f32⟩
  | .local _ .vmem, ⟨7, _⟩ => ⟨S1x1000x60, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v40 : BitVec 1 := Scalar.cmpi .eq arg1 c99_i32
  let v41 : BitVec 32 := Scalar.extui v40
  let c0_i32_24 : BitVec 32 := 0#32
  let v42 : BitVec 1 := Scalar.cmpi .ne v41 c0_i32_24
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x3x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x3x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1000x60 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S2x100000x60x3_S2x100000x3x60_0_1_3_2 : S2x100000x60x3.Transposes [0, 1, 3, 2] S2x100000x3x60
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  inb_S1x1000x3x60_S1x1000x3x60_0_0_0_0 : ∀ a, (![0, 0, 0, 0] : Fin 4 → Nat) a + S1x1000x3x60.size a ≤ S1x1000x3x60.size a
  h_S1x1000x3x60 : 0 < S1x1000x3x60.numel
  shapeCasts_S1x1000x3x60_S1000x3x60 : S1x1000x3x60.ShapeCasts S1000x3x60
  inb_S1x1000x60_S1x1000x60_0_0_0 : ∀ a, (![0, 0, 0] : Fin 3 → Nat) a + S1x1000x60.size a ≤ S1x1000x60.size a
  h_S1x1000x60 : 0 < S1x1000x60.numel
  shapeCasts_S1x1000x60_S1000x60 : S1x1000x60.ShapeCasts S1000x60
  shapeCasts_S1000x3_S1000x3x1 : S1000x3.ShapeCasts S1000x3x1
  broadcasts_S1000x3x1_S1000x3x60 : S1000x3x1.Broadcasts S1000x3x60
  reduces_S1000x3x60_S1000x60 : S1000x3x60.Reduces [1] S1000x60
  reduces_S1000x60_S1000 : S1000x60.Reduces [1] S1000
  shapeCasts_S1000_S1000x1 : S1000.ShapeCasts S1000x1
  reduces_S1000x1_S1 : S1000x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x1_S2 : S2x1x1.ShapeCasts S2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S2x100000x3.size a
  hwx0_0 : ∀ i : grid0.Coords, EltTy.bits .f32 = 32 ∨ (Rect.block (s := S2x100000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x3x60.size a ≤ S2x100000x3x60.size a
  hwx0_1 : ∀ i : grid0.Coords, EltTy.bits .f32 = 32 ∨ (Rect.block (s := S2x100000x3x60) S1x1000x3x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x3x60.size a ≤ S2x100000x3x60.size a
  hwx0_2 : ∀ i : grid0.Coords, EltTy.bits .f32 = 32 ∨ (Rect.block (s := S2x100000x3x60) S1x1000x3x60.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x60.size a ≤ S2x100000x60.size a
  hwx0_3 : ∀ i : grid0.Coords, EltTy.bits .f32 = 32 ∨ (Rect.block (s := S2x100000x60) S1x1000x60.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1000x3x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1000x3x60.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1000x60.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x100000x3 : Shape := ⟨3, ![2, 100000, 3]⟩
abbrev S2x100000x60x3 : Shape := ⟨4, ![2, 100000, 60, 3]⟩
abbrev S2x100000x60 : Shape := ⟨3, ![2, 100000, 60]⟩
abbrev S2x100000x1x3 : Shape := ⟨4, ![2, 100000, 1, 3]⟩
abbrev S_ : Shape := ⟨0, ![]⟩
abbrev S2x100000 : Shape := ⟨2, ![2, 100000]⟩
abbrev S2 : Shape := ⟨1, ![2]⟩

abbrev nBuf : Space → Nat
  | .hbm => 34
  | .vmem => 0
  | .smem => 0
  | _ => 0

abbrev bufTy : (tb : Table) → Fin (tcTables nBuf tb) → BufTy
  | .hbm, ⟨0, _⟩ => ⟨S2x100000x3, .f32⟩
  | .hbm, ⟨1, _⟩ => ⟨S2x100000x60x3, .f32⟩
  | .hbm, ⟨2, _⟩ => ⟨S2x100000x60x3, .f32⟩
  | .hbm, ⟨3, _⟩ => ⟨S2x100000x60, .f32⟩
  | .hbm, ⟨4, _⟩ => ⟨S2x100000x1x3, .f32⟩
  | .hbm, ⟨5, _⟩ => ⟨S2x100000x60x3, .f32⟩
  | .hbm, ⟨6, _⟩ => ⟨S2x100000x60x3, .f32⟩
  | .hbm, ⟨7, _⟩ => ⟨S2x100000x60x3, .f32⟩
  | .hbm, ⟨8, _⟩ => ⟨S_, .f32⟩
  | .hbm, ⟨9, _⟩ => ⟨S2x100000x60, .f32⟩
  | .hbm, ⟨10, _⟩ => ⟨S2x100000x60, .i1⟩
  | .hbm, ⟨11, _⟩ => ⟨S2x100000x60, .f32⟩
  | .hbm, ⟨12, _⟩ => ⟨S_, .f32⟩
  | .hbm, ⟨13, _⟩ => ⟨S2x100000x60, .f32⟩
  | .hbm, ⟨14, _⟩ => ⟨S2x100000x60, .f32⟩
  | .hbm, ⟨15, _⟩ => ⟨S2x100000x60, .f32⟩
  | .hbm, ⟨16, _⟩ => ⟨S2x100000x60, .f32⟩
  | .hbm, ⟨17, _⟩ => ⟨S2x100000x60, .f32⟩
  | .hbm, ⟨18, _⟩ => ⟨S_, .f32⟩
  | .hbm, ⟨19, _⟩ => ⟨S_, .f32⟩
  | .hbm, ⟨20, _⟩ => ⟨S2x100000x60, .f32⟩
  | .hbm, ⟨21, _⟩ => ⟨S2x100000x60, .f32⟩
  | .hbm, ⟨22, _⟩ => ⟨S2x100000x60x3, .f32⟩
  | .hbm, ⟨23, _⟩ => ⟨S_, .f32⟩
  | .hbm, ⟨24, _⟩ => ⟨S2x100000x60, .f32⟩
  | .hbm, ⟨25, _⟩ => ⟨S2x100000x60, .f32⟩
  | .hbm, ⟨26, _⟩ => ⟨S_, .f32⟩
  | .hbm, ⟨27, _⟩ => ⟨S2x100000, .f32⟩
  | .hbm, ⟨28, _⟩ => ⟨S_, .f32⟩
  | .hbm, ⟨29, _⟩ => ⟨S2x100000, .f32⟩
  | .hbm, ⟨30, _⟩ => ⟨S2x100000, .f32⟩
  | .hbm, ⟨31, _⟩ => ⟨S2x100000, .f32⟩
  | .hbm, ⟨32, _⟩ => ⟨S_, .f32⟩
  | .hbm, ⟨33, _⟩ => ⟨S2, .f32⟩
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2x100000x3_S2x100000x1x3_0_1_3 : S2x100000x3.BroadcastsInDim S2x100000x1x3 (![0, 1, 3] : Fin 3 → Fin S2x100000x1x3.rank)
  bcast_S2x100000x1x3_S2x100000x60x3_0_1_2_3 : S2x100000x1x3.BroadcastsInDim S2x100000x60x3 (![0, 1, 2, 3] : Fin 4 → Fin S2x100000x60x3.rank)
  reducesTo_S2x100000x60x3_S2x100000x60_d3 : S2x100000x60x3.ReducesTo [3] S2x100000x60
  h_S_ : 0 < S_.numel
  bcast_S_S2x100000x60 : S_.BroadcastsInDim S2x100000x60 (![] : Fin 0 → Fin S2x100000x60.rank)
  reducesTo_S2x100000x60_S2x100000_d2 : S2x100000x60.ReducesTo [2] S2x100000
  reducesTo_S2x100000_S2_d1 : S2x100000.ReducesTo [1] S2

variable [Facts₀]

class Facts : Prop extends Facts₀ where

variable [Facts]
-- ==== Proof.PointValue.lean ====
/-
  The value one point contributes, and the whole result as a function of the four argument arrays.

  For a point `pt` in three coordinates with sixty neighbours `v k`, their normals `n k` and squared support radii
  `r k`: the squared distance to neighbour `k` is `d k = Σ_c (pt c - v k c)^2`; its weight is `((1 - d k / r k)^2)^2`
  where `d k < r k` and the small constant `ε` elsewhere; the projection on its normal is
  `q k = Σ_c n k c · (pt c - v k c)`; the point's signed distance is the weighted mean `(Σ_k w k · q k) / (Σ_k w k)`
  and the point contributes its square. A batch's result is the sum of the contributions of its 100000 points.
  Everything is over the extended reals, with the quotient and the comparison read as the ideal instance reads them.

  The last lemma is the one law the two programs differ by: a sum over 100000 points taken whole is the sum over
  100 consecutive blocks of 1000 points of the blocks' sums (addition of extended reals commutes and associates).
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

namespace Cert.Sdf

open Idealize.ShloMosaic Idealize.ShloMosaic.ValueIdx

/-- The weight a neighbour outside its support radius gets: the f32 nearest to 1e-18. -/
abbrev eps : EReal := Ideal.ofBits .f32 0x219392EF#32
/-- The constant one. -/
abbrev one : EReal := Ideal.ofBits .f32 0x3F800000#32

/-- The offset from neighbour `k` to the point, coordinate `c`. -/
abbrev off (pt : Fin 3 → EReal) (v : Fin 60 → Fin 3 → EReal) (k : Fin 60) (c : Fin 3) : EReal := pt c - v k c

/-- The squared distance to neighbour `k`. -/
def dist (pt : Fin 3 → EReal) (v : Fin 60 → Fin 3 → EReal) (k : Fin 60) : EReal :=
  ∑ c : Fin 3, off pt v k c * off pt v k c

/-- The quartic weight of neighbour `k`: `((1 - d/r)^2)^2` inside the support radius, `ε` outside. -/
def weight (pt : Fin 3 → EReal) (v : Fin 60 → Fin 3 → EReal) (r : Fin 60 → EReal) (k : Fin 60) : EReal :=
  Scalar.select (Ideal.cmp .olt (dist pt v k) (r k))
    (((one - Ideal.div (dist pt v k) (r k)) * (one - Ideal.div (dist pt v k) (r k)))
      * ((one - Ideal.div (dist pt v k) (r k)) * (one - Ideal.div (dist pt v k) (r k))))
    eps

/-- The offset's projection on neighbour `k`'s normal. -/
def proj (pt : Fin 3 → EReal) (v n : Fin 60 → Fin 3 → EReal) (k : Fin 60) : EReal :=
  ∑ c : Fin 3, n k c * off pt v k c

/-- The point's signed distance: the weighted mean of the projections. -/
def sdf (pt : Fin 3 → EReal) (v n : Fin 60 → Fin 3 → EReal) (r : Fin 60 → EReal) : EReal :=
  Ideal.div (∑ k : Fin 60, weight pt v r k * proj pt v n k) (∑ k : Fin 60, weight pt v r k)

/-- What the point contributes: its signed distance squared. -/
def pointSq (pt : Fin 3 → EReal) (v n : Fin 60 → Fin 3 → EReal) (r : Fin 60 → EReal) : EReal :=
  sdf pt v n r * sdf pt v n r

/-- Point `p < 100000` sits in block `p / 1000` at place `p % 1000`. -/
abbrev inBlock (b : Fin 100) (i : Fin 1000) : Fin 100000 := ⟨1000 * b.val + i.val, by have := b.isLt; have := i.isLt; omega⟩

/-- A sum over 100000 points is the sum over 100 consecutive blocks of 1000 of the blocks' sums. -/
theorem sum_blocks {M : Type*} [AddCommMonoid M] (g : Fin 100000 → M) :
    ∑ p : Fin 100000, g p = ∑ b : Fin 100, ∑ i : Fin 1000, g (inBlock b i) := by
  rw [← Finset.sum_product' (f := fun b i => g (inBlock b i)), Finset.univ_product_univ]
  refine (Fintype.sum_equiv (finProdFinEquiv (m := 100) (n := 1000)) (fun x => g (inBlock x.1 x.2)) g (fun x => ?_)).symm
  refine congrArg g (Fin.ext ?_)
  show 1000 * x.1.val + x.2.val = x.2.val + 1000 * x.1.val
  omega

/-! ## The result as a function of the argument arrays -/

/-- The shapes of the argument arrays: the points f32[2, 100000, 3], the neighbours and their normals
    f32[2, 100000, 60, 3], the squared support radii f32[2, 100000, 60]. -/
abbrev PtsShape : Shape := ⟨3, ![2, 100000, 3]⟩
abbrev NbrShape : Shape := ⟨4, ![2, 100000, 60, 3]⟩
abbrev RadShape : Shape := ⟨3, ![2, 100000, 60]⟩

variable (P : PtsShape.Idx → EReal) (V N : NbrShape.Idx → EReal) (R : RadShape.Idx → EReal)

/-- What point `p` of batch `n` contributes, read off the argument arrays. -/
def pointAt (n : Fin 2) (p : Fin 100000) : EReal :=
  pointSq (fun c => P (ix3 n p c)) (fun k c => V (ix4 n p k c)) (fun k c => N (ix4 n p k c)) (fun k => R (ix3 n p k))

/-- Batch `n`'s result: the sum of its points' contributions. -/
def total (n : Fin 2) : EReal := ∑ p : Fin 100000, pointAt P V N R n p

/-- The sum of the contributions of block `b`'s 1000 points. -/
def blockSum (n : Fin 2) (b : Fin 100) : EReal := ∑ i : Fin 1000, pointAt P V N R n (inBlock b i)

/-- A batch's result is the sum of its 100 blocks' sums. -/
theorem total_eq_blocks (n : Fin 2) : total P V N R n = ∑ b : Fin 100, blockSum P V N R n b :=
  sum_blocks _

/-- Block sums by a natural-number block index (zero past the last block): the running sum below is over a range. -/
def blockSumN (n : Fin 2) (b : ℕ) : EReal := if h : b < 100 then blockSum P V N R n ⟨b, h⟩ else 0

/-- The running sum of the first `j + 1` blocks. -/
def partialSum (n : Fin 2) (j : ℕ) : EReal := ∑ b ∈ Finset.range (j + 1), blockSumN P V N R n b

theorem partialSum_zero (n : Fin 2) : partialSum P V N R n 0 = blockSumN P V N R n 0 := by
  unfold partialSum; rw [Finset.sum_range_one]

theorem partialSum_succ (n : Fin 2) (j : ℕ) :
    partialSum P V N R n (j + 1) = partialSum P V N R n j + blockSumN P V N R n (j + 1) := by
  unfold partialSum; rw [Finset.sum_range_succ]

/-- After the last block the running sum is the batch's result. -/
theorem partialSum_last (n : Fin 2) : partialSum P V N R n 99 = total P V N R n := by
  rw [total_eq_blocks]
  unfold partialSum
  rw [Finset.sum_range (fun b => blockSumN P V N R n b)]
  exact Finset.sum_congr rfl fun b _ => dif_pos b.isLt

end Cert.Sdf

end
-- ==== Proof.RefValue.lean ====
/-
  The reference program's result, read index by index at the ideal instance, is the specification's batch total:
  entry `n` of its result is the sum over the batch's 100000 points of each point's squared signed distance.
-/
import proofs.«114096_j75806172774865_1_alg».proof.Proof.Gen.ReferenceIdeal.Read
import proofs.«114096_j75806172774865_1_alg».proof.Proof.PointValue

noncomputable section

open Idealize.ShloMosaic Idealize.ShloMosaic.ValueIdx

namespace Cert.ReferenceIdeal.RefValue

open Cert.ReferenceIdeal Cert.ReferenceIdeal.Read

/-! ## The index maps at literal coordinates

Each reduction reads its operand at the result's coordinates with the summed coordinate put on the reduced axis;
the two broadcasts of the points drop the neighbour coordinate. -/

theorem idx_v20 (n : Fin 2) (p : Fin 100000) : idx_main_v20 (ix1 n) p = ix2 n p :=
  funext fun a => Fin.ext (by match a with | ⟨0, _⟩ => rfl | ⟨1, _⟩ => rfl)

theorem idx_v16 (n : Fin 2) (p : Fin 100000) (k : Fin 60) : idx_main_v16 (ix2 n p) k = ix3 n p k :=
  funext fun a => Fin.ext (by match a with | ⟨0, _⟩ => rfl | ⟨1, _⟩ => rfl | ⟨2, _⟩ => rfl)

theorem idx_v17 (n : Fin 2) (p : Fin 100000) (k : Fin 60) : idx_main_v17 (ix2 n p) k = ix3 n p k :=
  funext fun a => Fin.ext (by match a with | ⟨0, _⟩ => rfl | ⟨1, _⟩ => rfl | ⟨2, _⟩ => rfl)

theorem idx_v4 (n : Fin 2) (p : Fin 100000) (k : Fin 60) (c : Fin 3) : idx_main_v4 (ix3 n p k) c = ix4 n p k c :=
  funext fun a => Fin.ext (by match a with | ⟨0, _⟩ => rfl | ⟨1, _⟩ => rfl | ⟨2, _⟩ => rfl | ⟨3, _⟩ => rfl)

theorem idx_v14 (n : Fin 2) (p : Fin 100000) (k : Fin 60) (c : Fin 3) : idx_main_v14 (ix3 n p k) c = ix4 n p k c :=
  funext fun a => Fin.ext (by match a with | ⟨0, _⟩ => rfl | ⟨1, _⟩ => rfl | ⟨2, _⟩ => rfl | ⟨3, _⟩ => rfl)

theorem idx_v0_v1 (n : Fin 2) (p : Fin 100000) (k : Fin 60) (c : Fin 3) :
    idx_main_v0 (idx_main_v1 (ix4 n p k c)) = ix3 n p c :=
  funext fun a => Fin.ext (by match a with | ⟨0, _⟩ => rfl | ⟨1, _⟩ => rfl | ⟨2, _⟩ => rfl)

/-! ## The stages at one point, one neighbour, one coordinate -/

section Stages

variable (P : FVec Ideal S2x100000x3 .f32) (V N : FVec Ideal S2x100000x60x3 .f32) (R : FVec Ideal S2x100000x60 .f32)
  (n : Fin 2) (p : Fin 100000)

/-- The offset: the point's coordinate, broadcast over the neighbours, minus the neighbour's. -/
theorem v2_at (k : Fin 60) (c : Fin 3) :
    val_main_v2 (F := Ideal) P V (ix4 n p k c) = P (ix3 n p c) - V (ix4 n p k c) := by
  rw [val_main_v2_apply, val_main_v1_apply, val_main_v0_apply, idx_v0_v1, Ideal.subf_def]

/-- The squared distance to a neighbour: the sum over the three coordinates of the squared offsets. -/
theorem v4_at (k : Fin 60) :
    val_main_v4 (F := Ideal) P V (ix3 n p k)
      = Cert.Sdf.dist (fun c => P (ix3 n p c)) (fun k c => V (ix4 n p k c)) k := by
  rw [val_main_v4_apply, val_main_cst_apply, Ideal.ofBits_def, Ideal.ofBits_zero_f32, zero_add]
  unfold Cert.Sdf.dist
  refine Finset.sum_congr rfl fun c _ => ?_
  rw [idx_v4, val_main_v3_apply, v2_at, Ideal.mulf_def]

/-- The weight of a neighbour: the quartic inside the support radius, the small constant outside. -/
theorem v12_at (k : Fin 60) :
    val_main_v12 (F := Ideal) P V R (ix3 n p k)
      = Cert.Sdf.weight (fun c => P (ix3 n p c)) (fun k c => V (ix4 n p k c)) (fun k => R (ix3 n p k)) k := by
  rw [val_main_v12_apply, val_main_v5_apply, val_main_v11_apply, val_main_v9_apply, val_main_v10_apply,
    val_main_v8_apply, val_main_v7_apply, val_main_cst_0_apply, val_main_v6_apply, val_main_call0_v1_apply,
    val_main_call0_v0_apply, val_main_cst_1_apply, v4_at]
  rfl

/-- The projection of the offset on a neighbour's normal. -/
theorem v14_at (k : Fin 60) :
    val_main_v14 (F := Ideal) P V N (ix3 n p k)
      = Cert.Sdf.proj (fun c => P (ix3 n p c)) (fun k c => V (ix4 n p k c)) (fun k c => N (ix4 n p k c)) k := by
  rw [val_main_v14_apply, val_main_cst_2_apply, Ideal.ofBits_def, Ideal.ofBits_zero_f32, zero_add]
  unfold Cert.Sdf.proj
  refine Finset.sum_congr rfl fun c _ => ?_
  rw [idx_v14, val_main_v13_apply, v2_at, Ideal.mulf_def]

/-- The point's signed distance: the weighted sum of the projections over the sum of the weights. -/
theorem v18_at :
    val_main_v18 (F := Ideal) P V N R (ix2 n p)
      = Cert.Sdf.sdf (fun c => P (ix3 n p c)) (fun k c => V (ix4 n p k c)) (fun k c => N (ix4 n p k c))
          (fun k => R (ix3 n p k)) := by
  rw [val_main_v18_apply, val_main_v16_apply, val_main_v17_apply, val_main_cst_3_apply, val_main_cst_4_apply,
    Ideal.ofBits_def, Ideal.ofBits_zero_f32, zero_add, zero_add, Ideal.hostDivf_def]
  unfold Cert.Sdf.sdf
  refine congrArg₂ Ideal.div (Finset.sum_congr rfl fun k _ => ?_) (Finset.sum_congr rfl fun k _ => ?_)
  · rw [idx_v16, val_main_v15_apply, v12_at, v14_at, Ideal.mulf_def]
  · rw [idx_v17, v12_at]

/-- The point's contribution: its signed distance squared. -/
theorem v19_at :
    val_main_v19 (F := Ideal) P V N R (ix2 n p) = Cert.Sdf.pointAt P V N R n p := by
  rw [val_main_v19_apply, v18_at, Ideal.mulf_def]
  rfl

end Stages

/-- Entry `n` of the reference's result is batch `n`'s total. -/
theorem ref_total (P : FVec Ideal S2x100000x3 .f32) (V N : FVec Ideal S2x100000x60x3 .f32) (R : FVec Ideal S2x100000x60 .f32)
    (n : Fin 2) :
    val_main_v20 (F := Ideal) P V N R (ix1 n) = Cert.Sdf.total P V N R n := by
  rw [val_main_v20_apply, val_main_cst_5_apply, Ideal.ofBits_def, Ideal.ofBits_zero_f32, zero_add]
  unfold Cert.Sdf.total
  refine Finset.sum_congr rfl fun p _ => ?_
  rw [idx_v20, v19_at]

end Cert.ReferenceIdeal.RefValue

end
-- ==== Proof.Pieces.lean ====
/-
  What one run of the kernel body leaves behind, as values of what it was given.

  The body forms the contribution `s` of its block of 1000 points from the four input blocks, adds it to the
  running sum held in the one-word scratch, and stores the result back there. At the first block of a batch
  the scratch is first set to zero, so the body leaves `0 + s`; at every other block it leaves `acc + s` of the
  running sum `acc` the block before left. At the last block of a batch the body also copies what it has just stored
  to the output block. Each of these is ONE store through the whole one-word buffer, so reading the stores back is
  reading the stored value; a load of the scratch after a store into it reads that store's value.
-/
import proofs.«114096_j75806172774865_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A block other than a batch's first or last: the scratch goes from `acc` to `acc + s`. -/
theorem scratch_B (c : Dev nD) (i : grid0.Coords) (a2 : Memref sig .tc .vmem S1x1000x3 .f32) (h2 : a2.IsWhole) (a3 : Memref sig .tc .vmem S1x1000x3x60 .f32) (h3 : a3.IsWhole) (a4 : Memref sig .tc .vmem S1x1000x3x60 .f32) (h4 : a4.IsWhole) (a5 : Memref sig .tc .vmem S1x1000x60 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i) (x0 : Vec F S1x1000x3 .f32) (x1 : Vec F S1x1000x3x60 .f32) (x2 : Vec F S1x1000x3x60 .f32) (x3 : Vec F S1x1000x60 .f32) (xs0 : Vec F S1x1 .f32) :
    sout0_B_0 c i a2 h2 a3 h3 a4 h4 a5 h5 a6 h6 a7 h7 hc0 hc1 x0 x1 x2 x3 xs0 = k0_pay1 (k0_pay4 x0 x1 x2 x3) xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S1x1000x3) hz3, View.ld_unit_zero (S := S1x1000x3x60) hz4,
    View.ld_unit_zero (S := S1x1000x60) hz3, View.ld_unit_zero (S := S1x1) hz2]

/-- A batch's last block: the scratch goes from `acc` to `acc + s` as well, -/
theorem scratch_C (c : Dev nD) (i : grid0.Coords) (a2 : Memref sig .tc .vmem S1x1000x3 .f32) (h2 : a2.IsWhole) (a3 : Memref sig .tc .vmem S1x1000x3x60 .f32) (h3 : a3.IsWhole) (a4 : Memref sig .tc .vmem S1x1000x3x60 .f32) (h4 : a4.IsWhole) (a5 : Memref sig .tc .vmem S1x1000x60 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1x1000x3 .f32) (x1 : Vec F S1x1000x3x60 .f32) (x2 : Vec F S1x1000x3x60 .f32) (x3 : Vec F S1x1000x60 .f32) (xs0 : Vec F S1x1 .f32) :
    sout0_C_0 c i a2 h2 a3 h3 a4 h4 a5 h5 a6 h6 a7 h7 hc0 hc1 x0 x1 x2 x3 xs0 = k0_pay1 (k0_pay4 x0 x1 x2 x3) xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S1x1000x3) hz3, View.ld_unit_zero (S := S1x1000x3x60) hz4,
    View.ld_unit_zero (S := S1x1000x60) hz3, View.ld_unit_zero (S := S1x1) hz2]

/-- and the output block receives what the scratch then holds. -/
theorem out_C (c : Dev nD) (i : grid0.Coords) (a2 : Memref sig .tc .vmem S1x1000x3 .f32) (h2 : a2.IsWhole) (a3 : Memref sig .tc .vmem S1x1000x3x60 .f32) (h3 : a3.IsWhole) (a4 : Memref sig .tc .vmem S1x1000x3x60 .f32) (h4 : a4.IsWhole) (a5 : Memref sig .tc .vmem S1x1000x60 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1x1000x3 .f32) (x1 : Vec F S1x1000x3x60 .f32) (x2 : Vec F S1x1000x3x60 .f32) (x3 : Vec F S1x1000x60 .f32) (xs0 : Vec F S1x1 .f32) :
    out0_C_4 c i a2 h2 a3 h3 a4 h4 a5 h5 a6 h6 a7 h7 hc0 hc1 x0 x1 x2 x3 xs0 = k0_pay2 (k0_pay1 (k0_pay4 x0 x1 x2 x3) xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1x1) _ hz2]
  simp only [View.readAt_eq_ld, h2.read_unread, h3.read_unread, h4.read_unread, h5.read_unread, h7.read_unread,
    View.ld_unit_zero (S := S1x1000x3) hz3, View.ld_unit_zero (S := S1x1000x3x60) hz4,
    View.ld_unit_zero (S := S1x1000x60) hz3, View.ld_unit_zero (S := S1x1) hz2]

/-- A batch's first block: the scratch is zeroed, read back, and left at `0 + s`. -/
theorem scratch_A (c : Dev nD) (i : grid0.Coords) (a2 : Memref sig .tc .vmem S1x1000x3 .f32) (h2 : a2.IsWhole) (a3 : Memref sig .tc .vmem S1x1000x3x60 .f32) (h3 : a3.IsWhole) (a4 : Memref sig .tc .vmem S1x1000x3x60 .f32) (h4 : a4.IsWhole) (a5 : Memref sig .tc .vmem S1x1000x60 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i) (x0 : Vec F S1x1000x3 .f32) (x1 : Vec F S1x1000x3x60 .f32) (x2 : Vec F S1x1000x3x60 .f32) (x3 : Vec F S1x1000x60 .f32) :
    sout0_A_0 c i a2 h2 a3 h3 a4 h4 a5 h5 a6 h6 a7 h7 hc0 hc1 x0 x1 x2 x3 = k0_pay1 (k0_pay4 x0 x1 x2 x3) (k0_pay3 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h7.read_unread,
    View.ld_unit_zero (S := S1x1000x3) hz3, View.ld_unit_zero (S := S1x1000x3x60) hz4,
    View.ld_unit_zero (S := S1x1000x60) hz3, View.ld_unit_zero (S := S1x1) hz2]

end Cert.KernelIdeal.Pieces

end
-- ==== Proof.Blocks.lean ====
/-
  What the four input blocks of a grid point hold, read off the argument arrays.

  The grid has 2 × 100 points; point `t` works on block `t % 100` (1000 consecutive points) of batch `t / 100`.
  Its points block is rows `1000 (t % 100) + i` of batch `t / 100` of the points array, its radii block the same rows
  of the radii array, and its neighbour and normal blocks the same rows of the two arrays the program forms before
  the kernel by exchanging the last two axes of the neighbours and of the normals: entry (coordinate c, neighbour k)
  of such a block is entry (neighbour k, coordinate c) of the argument.
-/
import proofs.«114096_j75806172774865_1_alg».proof.Proof.Gen.KernelIdeal.Frame
import proofs.«114096_j75806172774865_1_alg».proof.Proof.PointValue
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.Sdf

variable {F : FTy → Type} [FloatOps F]
variable (m : (ℓ : Loc nD τ sig) → Buf (Elt F) ℓ)

/-- Grid point `t`'s batch, `t / 100`, and its block within the batch, `t % 100`. -/
abbrev batchOf (t : Fin cfg0.N) : Fin 2 := ⟨t.val / 100, by have := t.isLt; have hN : cfg0.N = 200 := N_0; omega⟩
abbrev blockOf (t : Fin cfg0.N) : Fin 100 := ⟨t.val % 100, Nat.mod_lt _ (by decide)⟩

/-- The four windows' block coordinates at point `t`: (batch, block, 0[, 0]). -/
theorem index0 : ∀ t : Fin cfg0.N, win0_0.index t 0 = t.val / 100 ∧ win0_0.index t 1 = t.val % 100 ∧ win0_0.index t 2 = 0 :=
  (by decide +kernel : ∀ t : Fin grid0.N, win0_0.index t 0 = t.val / 100 ∧ win0_0.index t 1 = t.val % 100 ∧ win0_0.index t 2 = 0)
theorem index1 : ∀ t : Fin cfg0.N, win0_1.index t 0 = t.val / 100 ∧ win0_1.index t 1 = t.val % 100 ∧ win0_1.index t 2 = 0 ∧ win0_1.index t 3 = 0 :=
  (by decide +kernel : ∀ t : Fin grid0.N, win0_1.index t 0 = t.val / 100 ∧ win0_1.index t 1 = t.val % 100 ∧ win0_1.index t 2 = 0 ∧ win0_1.index t 3 = 0)
theorem index2 : ∀ t : Fin cfg0.N, win0_2.index t 0 = t.val / 100 ∧ win0_2.index t 1 = t.val % 100 ∧ win0_2.index t 2 = 0 ∧ win0_2.index t 3 = 0 :=
  (by decide +kernel : ∀ t : Fin grid0.N, win0_2.index t 0 = t.val / 100 ∧ win0_2.index t 1 = t.val % 100 ∧ win0_2.index t 2 = 0 ∧ win0_2.index t 3 = 0)
theorem index3 : ∀ t : Fin cfg0.N, win0_3.index t 0 = t.val / 100 ∧ win0_3.index t 1 = t.val % 100 ∧ win0_3.index t 2 = 0 :=
  (by decide +kernel : ∀ t : Fin grid0.N, win0_3.index t 0 = t.val / 100 ∧ win0_3.index t 1 = t.val % 100 ∧ win0_3.index t 2 = 0)

/-- The points block: row `i` is point `1000 (t % 100) + i` of batch `t / 100`. -/
theorem points_block (c : Dev nD) (t : Fin cfg0.N) (i : Fin 1000) (d : Fin 3) :
    (iblk m c 0 t : Vec F S1x1000x3 .f32) (ix3 0 i d)
      = m ((c : Thread nD τ).loc main_arg0) (ix3 (batchOf t) (inBlock (blockOf t) i) d) := by
  unfold iblk
  rw [View.read_apply]
  show V m c main_arg0 _ = _
  rw [V_main_arg0]
  obtain ⟨e0, e1, e2⟩ := index0 t
  refine congrArg _ (funext fun a => Fin.ext ?_)
  match a with
  | ⟨0, _⟩ => show win0_0.index t 0 * 1 + 1 * 0 = t.val / 100; rw [e0]; omega
  | ⟨1, _⟩ => show win0_0.index t 1 * 1000 + 1 * i.val = 1000 * (t.val % 100) + i.val; rw [e1]; omega
  | ⟨2, _⟩ => show win0_0.index t 2 * 3 + 1 * d.val = d.val; rw [e2]; omega

/-- The radii block: row `i` is point `1000 (t % 100) + i` of batch `t / 100`. -/
theorem radii_block (c : Dev nD) (t : Fin cfg0.N) (i : Fin 1000) (k : Fin 60) :
    (iblk m c 3 t : Vec F S1x1000x60 .f32) (ix3 0 i k)
      = m ((c : Thread nD τ).loc main_arg3) (ix3 (batchOf t) (inBlock (blockOf t) i) k) := by
  unfold iblk
  rw [View.read_apply]
  show V m c main_arg3 _ = _
  rw [V_main_arg3]
  obtain ⟨e0, e1, e2⟩ := index3 t
  refine congrArg _ (funext fun a => Fin.ext ?_)
  match a with
  | ⟨0, _⟩ => show win0_3.index t 0 * 1 + 1 * 0 = t.val / 100; rw [e0]; omega
  | ⟨1, _⟩ => show win0_3.index t 1 * 1000 + 1 * i.val = 1000 * (t.val % 100) + i.val; rw [e1]; omega
  | ⟨2, _⟩ => show win0_3.index t 2 * 60 + 1 * k.val = k.val; rw [e2]; omega

/-- The array the neighbour window reads is the neighbours with their last two axes exchanged, -/
theorem nbrs_entry (c : Dev nD) :
    (V m c main_v0 : S2x100000x3x60.Idx → Elt F .f32)
      = transpose S2x100000x3x60 [0, 1, 3, 2] (m ((c : Thread nD τ).loc main_arg1))
          Facts₀.transposes_S2x100000x60x3_S2x100000x3x60_0_1_3_2 := by
  show StableHlo.after hostOps0 (fun b => m (c, b)) (Proc.devRef .tc main_v0) = _
  after_results

/-- and the array the normal window reads the normals with theirs exchanged. -/
theorem nrms_entry (c : Dev nD) :
    (V m c main_v1 : S2x100000x3x60.Idx → Elt F .f32)
      = transpose S2x100000x3x60 [0, 1, 3, 2] (m ((c : Thread nD τ).loc main_arg2))
          Facts₀.transposes_S2x100000x60x3_S2x100000x3x60_0_1_3_2 := by
  show StableHlo.after hostOps0 (fun b => m (c, b)) (Proc.devRef .tc main_v1) = _
  after_results

/-- Exchanging the last two axes, read at an index. -/
theorem swap_apply {α : Type} (x : S2x100000x60x3.Idx → α) (n : Fin 2) (p : Fin 100000) (d : Fin 3) (k : Fin 60) :
    transpose S2x100000x3x60 [0, 1, 3, 2] x Facts₀.transposes_S2x100000x60x3_S2x100000x3x60_0_1_3_2 (ix4 n p d k)
      = x (ix4 n p k d) :=
  transpose_apply _ x _ (ix4 n p d k) (ix4 n p k d) (fun b => match b with
    | ⟨0, _⟩ => rfl
    | ⟨1, _⟩ => rfl
    | ⟨2, _⟩ => rfl
    | ⟨3, _⟩ => rfl)

/-- The neighbour block: entry (row `i`, coordinate `d`, neighbour `k`) is coordinate `d` of neighbour `k` of point
    `1000 (t % 100) + i` of batch `t / 100`. -/
theorem nbrs_block (c : Dev nD) (t : Fin cfg0.N) (i : Fin 1000) (d : Fin 3) (k : Fin 60) :
    (iblk m c 1 t : Vec F S1x1000x3x60 .f32) (ix4 0 i d k)
      = m ((c : Thread nD τ).loc main_arg1) (ix4 (batchOf t) (inBlock (blockOf t) i) k d) := by
  unfold iblk
  rw [View.read_apply]
  show V m c main_v0 _ = _
  rw [nbrs_entry, ← swap_apply (m ((c : Thread nD τ).loc main_arg1)) (batchOf t) (inBlock (blockOf t) i) d k]
  obtain ⟨e0, e1, e2, e3⟩ := index1 t
  refine congrArg _ (funext fun a => Fin.ext ?_)
  match a with
  | ⟨0, _⟩ => show win0_1.index t 0 * 1 + 1 * 0 = t.val / 100; rw [e0]; omega
  | ⟨1, _⟩ => show win0_1.index t 1 * 1000 + 1 * i.val = 1000 * (t.val % 100) + i.val; rw [e1]; omega
  | ⟨2, _⟩ => show win0_1.index t 2 * 3 + 1 * d.val = d.val; rw [e2]; omega
  | ⟨3, _⟩ => show win0_1.index t 3 * 60 + 1 * k.val = k.val; rw [e3]; omega

/-- The normal block likewise. -/
theorem nrms_block (c : Dev nD) (t : Fin cfg0.N) (i : Fin 1000) (d : Fin 3) (k : Fin 60) :
    (iblk m c 2 t : Vec F S1x1000x3x60 .f32) (ix4 0 i d k)
      = m ((c : Thread nD τ).loc main_arg2) (ix4 (batchOf t) (inBlock (blockOf t) i) k d) := by
  unfold iblk
  rw [View.read_apply]
  show V m c main_v1 _ = _
  rw [nrms_entry, ← swap_apply (m ((c : Thread nD τ).loc main_arg2)) (batchOf t) (inBlock (blockOf t) i) d k]
  obtain ⟨e0, e1, e2, e3⟩ := index2 t
  refine congrArg _ (funext fun a => Fin.ext ?_)
  match a with
  | ⟨0, _⟩ => show win0_2.index t 0 * 1 + 1 * 0 = t.val / 100; rw [e0]; omega
  | ⟨1, _⟩ => show win0_2.index t 1 * 1000 + 1 * i.val = 1000 * (t.val % 100) + i.val; rw [e1]; omega
  | ⟨2, _⟩ => show win0_2.index t 2 * 3 + 1 * d.val = d.val; rw [e2]; omega
  | ⟨3, _⟩ => show win0_2.index t 3 * 60 + 1 * k.val = k.val; rw [e3]; omega

end Cert.KernelIdeal.Blocks

end
-- ==== Proof.LibKeepdims.lean ====
/-
  Layout operations and lane sums read at an index given by its coordinates — general lemmas, for any extents.

  A trailing unit axis added by a shape cast ([a] → [a, 1] and [a, b] → [a, b, 1]: what a sum with its reduced axis
  kept, or a column made for broadcasting, prints as) reads the operand at the remaining coordinates; a trailing unit
  axis broadcast to any extent ([a, b, 1] → [a, b, c]) reads the operand's one column entry; and at the ideal
  instance a float sum over one axis of a rank-2 or rank-3 array (the first or last axis of [a, b], the middle axis
  of [a, b, c]) is, at the remaining coordinates, the sum over that axis's coordinate of the operand's entries.
-/
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.ValueIdx

namespace Cert.Lib.Keepdims

/-! ## The keepdims column forms read at an index -/

section Layout
variable {α : Type}

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand's one column entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## A lane sum over one axis, read at an index given by coordinates -/

section Sums

/-- The sum over the middle axis of an `[a, b, c]` array reads, at `(i, k)`, the sum over `j` of the entries `(i, j, k)`. -/
theorem sum_mid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction (F := Ideal) .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The sum over the last axis of an `[a, b]` array reads, at `i`, the sum over `k` of the entries `(i, k)`. -/
theorem sum_last_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src (funext fun ax => Fin.ext ?_)
  match ax with
  | ⟨0, _⟩ => rfl
  | ⟨1, _⟩ => rfl

/-- The sum over the first axis of an `[a, b]` array reads, at `k`, the sum over `i` of the entries `(i, k)`. -/
theorem sum_first_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (k : Fin b) :
    multiReduction (F := Ideal) .add [0] ⟨1, ![b]⟩ src 0x00000000#32 h hφ hacc (ix1 k) = ∑ i : Fin a, src (ix2 i k) := by
  refine (Ideal.multiReduction_add_single src 0x00000000#32 h hφ hacc (ix1 k)).trans ?_
  refine Finset.sum_congr rfl fun i _ => congrArg src (funext fun ax => Fin.ext ?_)
  match ax with
  | ⟨0, _⟩ => rfl
  | ⟨1, _⟩ => rfl

end Sums

end Cert.Lib.Keepdims

end
-- ==== Proof.BlockValue.lean ====
/-
  The value the kernel body forms from one block of 1000 points, read at the ideal instance: the sum over the
  block's points of each point's squared signed distance, the point's coordinates, neighbours, normals and radii read
  off the four input blocks (the neighbour blocks hold the coordinate axis before the neighbour axis).
-/
import proofs.«114096_j75806172774865_1_alg».proof.Proof.Gen.KernelIdeal.Skeleton
import proofs.«114096_j75806172774865_1_alg».proof.Proof.PointValue
import proofs.«114096_j75806172774865_1_alg».proof.Proof.LibKeepdims
import Idealize.ShloMosaic.Lib.Pipeline.Value
import Idealize.ShloMosaic.Lib.ValueLayout

noncomputable section

open Idealize.ShloMosaic Idealize.ShloMosaic.ValueIdx

namespace Cert.KernelIdeal.BlockValue

open Cert.KernelIdeal Cert.KernelIdeal.Gen Cert.Lib.Keepdims

/-! ## The block's intermediate arrays

The kernel body's arithmetic, cut at the arrays the mathematics names: the offsets from every neighbour to every
point, the squared distances, the weights, the projections on the normals, the two neighbour sums and their quotient. -/

section Arrays
variable (x0 : FVec Ideal S1x1000x3 .f32) (x1 x2 : FVec Ideal S1x1000x3x60 .f32) (x3 : FVec Ideal S1x1000x60 .f32)

/-- The points, each coordinate repeated along the neighbour axis. -/
def ptsV : FVec Ideal S1000x3x60 .f32 :=
  broadcastTo S1000x3x60
    (shapeCast S1000x3x1 (shapeCast S1000x3 x0 shapeCasts_S1x1000x3_S1000x3) shapeCasts_S1000x3_S1000x3x1)
    broadcasts_S1000x3x1_S1000x3x60

/-- The offsets `pt c - v k c`, laid out `[point, coordinate, neighbour]`. -/
def offV : FVec Ideal S1000x3x60 .f32 :=
  subf (ptsV x0) (shapeCast S1000x3x60 x1 shapeCasts_S1x1000x3x60_S1000x3x60)

/-- The squared distances, `[point, neighbour]`. -/
def distV : FVec Ideal S1000x60 .f32 :=
  multiReduction .add [1] S1000x60 (mulf (offV x0 x1) (offV x0 x1)) 0x00000000#32 reduces_S1000x3x60_S1000x60 (.inl rfl) rfl

/-- The squared support radii, `[point, neighbour]`. -/
def radV : FVec Ideal S1000x60 .f32 := shapeCast S1000x60 x3 shapeCasts_S1x1000x60_S1000x60

/-- `1 - d / r`, `[point, neighbour]`. -/
def fallV : FVec Ideal S1000x60 .f32 :=
  subf (broadcast S1000x60 (Scalar.ofBits .f32 0x3F800000#32)) (divf (distV x0 x1) (radV x3))

/-- The weights, `[point, neighbour]`. -/
def weightV : FVec Ideal S1000x60 .f32 :=
  select (cmpf .olt (distV x0 x1) (radV x3))
    (mulf (mulf (fallV x0 x1 x3) (fallV x0 x1 x3)) (mulf (fallV x0 x1 x3) (fallV x0 x1 x3)))
    (broadcast S1000x60 (Scalar.ofBits .f32 0x219392EF#32))

/-- The projections of the offsets on the normals, `[point, neighbour]`. -/
def projV : FVec Ideal S1000x60 .f32 :=
  multiReduction .add [1] S1000x60 (mulf (shapeCast S1000x3x60 x2 shapeCasts_S1x1000x3x60_S1000x3x60) (offV x0 x1))
    0x00000000#32 reduces_S1000x3x60_S1000x60 (.inl rfl) rfl

/-- The weighted sum of the projections, per point. -/
def numV : FVec Ideal S1000 .f32 :=
  multiReduction .add [1] S1000 (mulf (weightV x0 x1 x3) (projV x0 x1 x2)) 0x00000000#32 reduces_S1000x60_S1000 (.inl rfl) rfl

/-- The sum of the weights, per point. -/
def denV : FVec Ideal S1000 .f32 :=
  multiReduction .add [1] S1000 (weightV x0 x1 x3) 0x00000000#32 reduces_S1000x60_S1000 (.inl rfl) rfl

/-- The signed distances, as a column `[point, 1]`. -/
def sdfV : FVec Ideal S1000x1 .f32 :=
  divf (shapeCast S1000x1 (numV x0 x1 x2 x3) shapeCasts_S1000_S1000x1) (shapeCast S1000x1 (denV x0 x1 x3) shapeCasts_S1000_S1000x1)

/-- The body's value is the sum over the points of the squared signed distances: the printed term, cut at the
    arrays above. -/
theorem k0_pay4_eq :
    k0_pay4 (F := Ideal) x0 x1 x2 x3
      = multiReduction .add [0] S1 (mulf (sdfV x0 x1 x2 x3) (sdfV x0 x1 x2 x3)) 0x00000000#32 reduces_S1000x1_S1 (.inl rfl) rfl :=
  rfl

end Arrays

/-! ## The arrays read at an index

Point `i` of the block has coordinates `x0 (0, i, c)`, its neighbour `k` the coordinates `x1 (0, i, c, k)` and the normal
`x2 (0, i, c, k)` (coordinate axis before neighbour axis), and the squared radius `x3 (0, i, k)`. -/

section Reads
variable (x0 : FVec Ideal S1x1000x3 .f32) (x1 x2 : FVec Ideal S1x1000x3x60 .f32) (x3 : FVec Ideal S1x1000x60 .f32)

/-- The repeated points read the point's coordinate, whatever the neighbour. -/
theorem ptsV_apply (i : Fin 1000) (c : Fin 3) (k : Fin 60) : ptsV x0 (ix3 i c k) = x0 (ix3 0 i c) := by
  unfold ptsV
  refine (broadcastTo_ab1_abc_apply _ _ i c k).trans ?_
  refine (shapeCast_ab_ab1_apply _ _ i c 0).trans ?_
  exact shapeCast_1ab_ab_apply x0 _ i c

/-- The offset from neighbour `k` to point `i`, coordinate `c`. -/
theorem offV_apply (i : Fin 1000) (c : Fin 3) (k : Fin 60) :
    offV x0 x1 (ix3 i c k) = x0 (ix3 0 i c) - x1 (ix4 0 i c k) := by
  unfold offV
  rw [subf_apply, ptsV_apply x0 i c k, shapeCast_1abc_abc_apply x1 _ i c k]

/-- The squared distance from point `i` to its neighbour `k`. -/
theorem distV_apply (i : Fin 1000) (k : Fin 60) :
    distV x0 x1 (ix2 i k) = Cert.Sdf.dist (fun c => x0 (ix3 0 i c)) (fun k c => x1 (ix4 0 i c k)) k := by
  unfold distV Cert.Sdf.dist
  refine (sum_mid_apply _ _ _ _ i k).trans ?_
  refine Finset.sum_congr rfl fun c _ => ?_
  rw [mulf_apply, offV_apply x0 x1 i c k]

/-- The squared support radius of point `i`'s neighbour `k`. -/
theorem radV_apply (i : Fin 1000) (k : Fin 60) : radV x3 (ix2 i k) = x3 (ix3 0 i k) := by
  unfold radV
  exact shapeCast_1ab_ab_apply x3 _ i k

/-- `1 - d / r` for point `i` and its neighbour `k`. -/
theorem fallV_apply (i : Fin 1000) (k : Fin 60) :
    fallV x0 x1 x3 (ix2 i k)
      = Cert.Sdf.one - Ideal.div (Cert.Sdf.dist (fun c => x0 (ix3 0 i c)) (fun k c => x1 (ix4 0 i c k)) k) (x3 (ix3 0 i k)) := by
  unfold fallV
  rw [subf_apply, divf_apply, distV_apply x0 x1 i k, radV_apply x3 i k]
  rfl

/-- The weight of point `i`'s neighbour `k`. -/
theorem weightV_apply (i : Fin 1000) (k : Fin 60) :
    weightV x0 x1 x3 (ix2 i k)
      = Cert.Sdf.weight (fun c => x0 (ix3 0 i c)) (fun k c => x1 (ix4 0 i c k)) (fun k => x3 (ix3 0 i k)) k := by
  unfold weightV Cert.Sdf.weight
  rw [select_apply, cmpf_apply, mulf_apply, mulf_apply, fallV_apply x0 x1 x3 i k, distV_apply x0 x1 i k,
    radV_apply x3 i k]
  rfl

/-- The projection of the offset from neighbour `k` to point `i` on the neighbour's normal. -/
theorem projV_apply (i : Fin 1000) (k : Fin 60) :
    projV x0 x1 x2 (ix2 i k)
      = Cert.Sdf.proj (fun c => x0 (ix3 0 i c)) (fun k c => x1 (ix4 0 i c k)) (fun k c => x2 (ix4 0 i c k)) k := by
  unfold projV Cert.Sdf.proj
  refine (sum_mid_apply _ _ _ _ i k).trans ?_
  refine Finset.sum_congr rfl fun c _ => ?_
  rw [mulf_apply, offV_apply x0 x1 i c k, shapeCast_1abc_abc_apply x2 _ i c k]

/-- The signed distance of point `i`. -/
theorem sdfV_apply (i : Fin 1000) :
    sdfV x0 x1 x2 x3 (ix2 i 0)
      = Cert.Sdf.sdf (fun c => x0 (ix3 0 i c)) (fun k c => x1 (ix4 0 i c k)) (fun k c => x2 (ix4 0 i c k))
          (fun k => x3 (ix3 0 i k)) := by
  unfold sdfV Cert.Sdf.sdf
  rw [divf_apply, shapeCast_a_a1_apply _ _ i 0, shapeCast_a_a1_apply _ _ i 0]
  unfold numV denV
  refine congrArg₂ Ideal.div ((sum_last_apply _ _ _ _ i).trans (Finset.sum_congr rfl fun k _ => ?_))
    ((sum_last_apply _ _ _ _ i).trans (Finset.sum_congr rfl fun k _ => ?_))
  · rw [mulf_apply, weightV_apply x0 x1 x3 i k, projV_apply x0 x1 x2 i k]
  · exact weightV_apply x0 x1 x3 i k

end Reads

/-- The block's contribution is the sum of its 1000 points' squared signed distances. -/
theorem block_contribution (x0 : FVec Ideal S1x1000x3 .f32) (x1 x2 : FVec Ideal S1x1000x3x60 .f32) (x3 : FVec Ideal S1x1000x60 .f32) :
    k0_pay4 (F := Ideal) x0 x1 x2 x3 (ix1 0)
      = ∑ i : Fin 1000, Cert.Sdf.pointSq (fun c => x0 (ix3 0 i c)) (fun k c => x1 (ix4 0 i c k)) (fun k c => x2 (ix4 0 i c k))
          (fun k => x3 (ix3 0 i k)) := by
  rw [k0_pay4_eq]
  refine (sum_first_apply _ _ _ _ 0).trans ?_
  refine Finset.sum_congr rfl fun i _ => ?_
  unfold Cert.Sdf.pointSq
  rw [mulf_apply, sdfV_apply x0 x1 x2 x3 i]

end Cert.KernelIdeal.BlockValue

end
-- ==== Proof.Accumulate.lean ====
/-
  The running sum the kernel carries in its one-word scratch, point by point.

  Grid point `t` is block `t % 100` of batch `t / 100`. Its body adds the block's sum — the sum of the squared signed
  distances of the block's 1000 points, read off the argument arrays — to the scratch, which it has set to zero first
  when the block is the batch's first. So after point `t` the scratch holds the sum of the block sums of blocks
  `0 … t % 100` of batch `t / 100`: by induction on `t`, the step at a first block starting the sum afresh and
  every other step adding one more block to what the point before left.
-/
import proofs.«114096_j75806172774865_1_alg».proof.Proof.Pieces
import proofs.«114096_j75806172774865_1_alg».proof.Proof.Blocks
import proofs.«114096_j75806172774865_1_alg».proof.Proof.BlockValue
import Idealize.ShloMosaic.Lib.ValueLayout

noncomputable section

open Idealize.ShloMosaic Idealize.ShloMosaic.TcCoe Idealize.SL.Sem Idealize.ShloMosaic.ValueIdx

namespace Cert.KernelIdeal.Accumulate

open Cert.KernelIdeal Cert.KernelIdeal.Gen Cert.Sdf Cert.KernelIdeal.Blocks

variable (m : (ℓ : Loc nD τ sig) → Buf (Elt Ideal) ℓ)

/-- The four argument arrays on core `c`. -/
abbrev argP (c : Dev nD) : PtsShape.Idx → EReal := m ((c : Thread nD τ).loc main_arg0)
abbrev argV (c : Dev nD) : NbrShape.Idx → EReal := m ((c : Thread nD τ).loc main_arg1)
abbrev argN (c : Dev nD) : NbrShape.Idx → EReal := m ((c : Thread nD τ).loc main_arg2)
abbrev argR (c : Dev nD) : RadShape.Idx → EReal := m ((c : Thread nD τ).loc main_arg3)

/-- A point's contribution depends only on the values it is given. -/
theorem pointSq_congr {pt pt' : Fin 3 → EReal} {v v' n n' : Fin 60 → Fin 3 → EReal} {r r' : Fin 60 → EReal}
    (h0 : ∀ d, pt d = pt' d) (h1 : ∀ k d, v k d = v' k d) (h2 : ∀ k d, n k d = n' k d) (h3 : ∀ k, r k = r' k) :
    pointSq pt v n r = pointSq pt' v' n' r' := by
  obtain rfl : pt = pt' := funext h0
  obtain rfl : v = v' := funext fun k => funext (h1 k)
  obtain rfl : n = n' := funext fun k => funext (h2 k)
  obtain rfl : r = r' := funext h3
  rfl

/-- What the body at point `t` forms from its four input blocks. -/
abbrev gain (c : Dev nD) (t : Fin cfg0.N) : FVec Ideal S1 .f32 :=
  k0_pay4 (F := Ideal) (iblk m c 0 t) (iblk m c 1 t) (iblk m c 2 t) (iblk m c 3 t)

/-- It is the block sum of block `t % 100` of batch `t / 100`. -/
theorem gain_eq (c : Dev nD) (t : Fin cfg0.N) :
    gain m c t (ix1 0) = blockSum (argP m c) (argV m c) (argN m c) (argR m c) (batchOf t) (blockOf t) := by
  refine (BlockValue.block_contribution (iblk m c 0 t) (iblk m c 1 t) (iblk m c 2 t) (iblk m c 3 t)).trans ?_
  unfold blockSum pointAt
  exact Finset.sum_congr rfl fun i _ => pointSq_congr (fun d => points_block m c t i d)
    (fun k d => nbrs_block m c t i d k) (fun k d => nrms_block m c t i d k) (fun k => radii_block m c t i k)

/-! ## The scratch word's three payloads at their one index -/

/-- The reset stores zero. -/
theorem zero_word : (k0_pay3 (F := Ideal)) (ix2 0 0) = 0 := by
  unfold k0_pay3
  rw [shapeCast_self]
  exact Ideal.ofBits_zero_f32

/-- The update stores the scratch plus the block's sum. -/
theorem added (s : FVec Ideal S1 .f32) (a : Vec Ideal S1x1 .f32) :
    k0_pay1 (F := Ideal) s a (ix2 0 0) = a (ix2 0 0) + s (ix1 0) := by
  unfold k0_pay1
  rw [shapeCast_self]
  show a (ix2 0 0) + shapeCast S1x1 s _ (ix2 0 0) = _
  rw [shapeCast_a_1a_apply]

/-- The output block receives the scratch word. -/
theorem copied (a : Vec Ideal S1x1 .f32) : k0_pay2 (F := Ideal) a (ix3 0 0 0) = a (ix2 0 0) := by
  unfold k0_pay2
  exact shapeCast_ab_1ab_apply a _ 0 0 0

/-! ## One step of the running sum -/

/-- At a batch's first block the sum starts afresh: zero plus the block's sum. -/
theorem first_step (c : Dev nD) (t : Fin cfg0.N) (h0 : t.val % 100 = 0) :
    k0_pay1 (F := Ideal) (gain m c t) (k0_pay3 (F := Ideal)) (ix2 0 0)
      = partialSum (argP m c) (argV m c) (argN m c) (argR m c) (batchOf t) (t.val % 100) := by
  rw [added, zero_word, zero_add, gain_eq]
  have e : blockOf t = ⟨0, by decide⟩ := Fin.ext h0
  rw [e, h0, partialSum_zero]
  unfold blockSumN
  rw [dif_pos (by decide : (0 : ℕ) < 100)]

/-- At every other block one more block sum joins what the point before left. -/
theorem next_step (c : Dev nD) (t : Fin cfg0.N) (h0 : ¬t.val % 100 = 0) (acc : Vec Ideal S1x1 .f32)
    (hacc : acc (ix2 0 0) = partialSum (argP m c) (argV m c) (argN m c) (argR m c) (batchOf t) (t.val % 100 - 1)) :
    k0_pay1 (F := Ideal) (gain m c t) acc (ix2 0 0)
      = partialSum (argP m c) (argV m c) (argN m c) (argR m c) (batchOf t) (t.val % 100) := by
  rw [added, hacc, gain_eq]
  obtain ⟨j, hj⟩ : ∃ j, t.val % 100 = j + 1 := ⟨t.val % 100 - 1, by omega⟩
  have hlt : j + 1 < 100 := by have := Nat.mod_lt t.val (by decide : 100 > 0); omega
  have e : blockSum (argP m c) (argV m c) (argN m c) (argR m c) (batchOf t) (blockOf t)
      = blockSumN (argP m c) (argV m c) (argN m c) (argR m c) (batchOf t) (j + 1) := by
    unfold blockSumN
    rw [dif_pos hlt]
    exact congrArg _ (Fin.ext hj)
  rw [e, hj, Nat.add_sub_cancel, partialSum_succ]

/-! ## The scratch after every point -/

/-- After point `n` the scratch holds the sum of the block sums of blocks `0 … n % 100` of batch `n / 100`. -/
theorem scratch_after (c : Dev nD) : ∀ (n : ℕ) (h : n < cfg0.N),
    (outsAt0 m c n h).2 (ix2 0 0) = partialSum (argP m c) (argV m c) (argN m c) (argR m c) (batchOf ⟨n, h⟩) (n % 100)
  | 0, h => by
    rw [outsAt0_A m c ⟨0, h⟩ rfl (fun hh => absurd hh (by decide : ¬(0 : ℕ) % 100 = 99))]
    dsimp only
    refine (congrFun (Pieces.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun hh => absurd ((hcond0_1 ⟨0, h⟩).mp hh) (by decide : ¬(0 : ℕ) % 100 = 99)) (iblk m c 0 ⟨0, h⟩) (iblk m c 1 ⟨0, h⟩) (iblk m c 2 ⟨0, h⟩) (iblk m c 3 ⟨0, h⟩)) (ix2 0 0)).trans ?_
    exact first_step m c ⟨0, h⟩ rfl
  | n + 1, h => by
    by_cases h0 : (n + 1) % 100 = 0
    · have h1 : ¬(n + 1) % 100 = 99 := by omega
      rw [outsAt0_A m c ⟨n + 1, h⟩ h0 h1]
      dsimp only
      refine (congrFun (Pieces.scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)) (ix2 0 0)).trans ?_
      exact first_step m c ⟨n + 1, h⟩ h0
    · have ih := scratch_after c n (Nat.lt_of_succ_lt h)
      have hb : batchOf ⟨n, Nat.lt_of_succ_lt h⟩ = batchOf ⟨n + 1, h⟩ := Fin.ext (by show n / 100 = (n + 1) / 100; omega)
      have hm : n % 100 = (n + 1) % 100 - 1 := by omega
      have hprev : (outsAt0 m c n (Nat.lt_of_succ_lt h)).2 (ix2 0 0)
          = partialSum (argP m c) (argV m c) (argN m c) (argR m c) (batchOf ⟨n + 1, h⟩) ((⟨n + 1, h⟩ : Fin cfg0.N).val % 100 - 1) := by
        rw [ih, hb]; exact congrArg _ hm
      by_cases h1 : (n + 1) % 100 = 99
      · rw [outsAt0_C m c ⟨n + 1, h⟩ h0 h1]
        dsimp only
        refine (congrFun (Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2) (ix2 0 0)).trans ?_
        exact next_step m c ⟨n + 1, h⟩ h0 _ hprev
      · rw [outsAt0_B m c ⟨n + 1, h⟩ h0 h1]
        dsimp only
        refine (congrFun (Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2) (ix2 0 0)).trans ?_
        exact next_step m c ⟨n + 1, h⟩ h0 _ hprev

/-- After a batch's last block the output block holds the batch's total: the body copies the scratch, which by then
    holds all hundred block sums. -/
theorem output_at_last (c : Dev nD) (t : Fin cfg0.N) (h99 : t.val % 100 = 99) :
    (outsAt0 m c t.val t.isLt).1 (ix3 0 0 0) = total (argP m c) (argV m c) (argN m c) (argR m c) (batchOf t) := by
  have h0 : ¬t.val % 100 = 0 := by omega
  have e1 : (outsAt0 m c t.val t.isLt).1
      = k0_pay2 (F := Ideal) (k0_pay1 (F := Ideal) (gain m c t) (outsAt0 m c (t.val - 1) (Nat.lt_of_le_of_lt (Nat.sub_le _ _) t.isLt)).2) := by
    rw [outsAt0_C m c t h0 h99]
    dsimp only
    exact Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h99) (iblk m c 0 t) (iblk m c 1 t) (iblk m c 2 t) (iblk m c 3 t) (outsAt0 m c (t.val - 1) (Nat.lt_of_le_of_lt (Nat.sub_le _ _) t.isLt)).2
  have e2 : (outsAt0 m c t.val t.isLt).2
      = k0_pay1 (F := Ideal) (gain m c t) (outsAt0 m c (t.val - 1) (Nat.lt_of_le_of_lt (Nat.sub_le _ _) t.isLt)).2 := by
    rw [outsAt0_C m c t h0 h99]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h99) (iblk m c 0 t) (iblk m c 1 t) (iblk m c 2 t) (iblk m c 3 t) (outsAt0 m c (t.val - 1) (Nat.lt_of_le_of_lt (Nat.sub_le _ _) t.isLt)).2
  rw [e1, copied, ← e2, scratch_after m c t.val t.isLt, h99]
  exact partialSum_last _ _ _ _ _

end Cert.KernelIdeal.Accumulate

end
-- ==== Proof.Result.lean ====
/-
  The kernel program's result as a function of its arguments.

  Only a batch's last block writes the output back, and what it writes is the batch's total; batch `n`'s output
  block is the single entry `(n, 0, 0)` of the [2, 1, 1] output array, so the two write-backs cover the array and it
  ends holding the two totals. The program's last line reshapes that array to [2]: entry `n` of the result is
  batch `n`'s total.
-/
import proofs.«114096_j75806172774865_1_alg».proof.Proof.Accumulate
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Sdf Cert.KernelIdeal.Blocks Cert.KernelIdeal.Accumulate

variable (m : (ℓ : Loc nD τ sig) → Buf (Elt Ideal) ℓ) (ρ : Dev nD → PrngReg)

/-- What the [2, 1, 1] output array ends holding: entry `(n, 0, 0)` is batch `n`'s total. -/
def outArr (c : Dev nD) : Buf (Elt Ideal) ((c : Thread nD τ).loc main_v2) :=
  fun i => total (argP m c) (argV m c) (argN m c) (argR m c) ⟨(i 0).val, (i 0).isLt⟩

/-- The output window's block coordinates at point `t`: (batch, 0, 0). -/
theorem index4 : ∀ t : Fin cfg0.N, win0_4.index t 0 = t.val / 100 ∧ win0_4.index t 1 = 0 ∧ win0_4.index t 2 = 0 :=
  (by decide +kernel : ∀ t : Fin grid0.N, win0_4.index t 0 = t.val / 100 ∧ win0_4.index t 1 = 0 ∧ win0_4.index t 2 = 0)

/-- The output block has one entry; after a batch's last block it holds the batch's total. -/
theorem block_at_last (c : Dev nD) (t : Fin cfg0.N) (h99 : t.val % 100 = 99) :
    (outsAt0 m c t.val t.isLt).1 = fun _ => total (argP m c) (argV m c) (argN m c) (argR m c) (batchOf t) := by
  funext y
  obtain rfl : y = ix3 0 0 0 := funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)
  exact output_at_last m c t h99

/-- A one-entry block holding `T` is point `t`'s block of any array whose entries of batch `t / 100` are `T`. -/
theorem const_block (c : Dev nD) (t : Fin cfg0.N) (G : Buf (Elt Ideal) ((c : Thread nD τ).loc main_v2)) (T : EReal)
    (hG : ∀ i : S2x1x1.Idx, (i 0).val = t.val / 100 → G i = T) :
    (cfg0.win 4).cut (grid0.coords t) (fun _ => T) = ((cfg0.win 4).blk t).view.read (Elt Ideal) G := by
  funext y
  show T = G (((cfg0.win 4).blk t).view.emb y)
  refine (hG _ ?_).symm
  show win0_4.index t 0 * 1 + 1 * (y 0).val = t.val / 100
  have h : (y 0).val < 1 := (y 0).isLt
  rw [(index4 t).1]; omega

/-- What a writing point writes back is its block of that array. -/
theorem flushed_eq (c : Dev nD) (t : Fin cfg0.N) (hf : (cfg0.win 4).flush t = true) :
    (dats m 0 c).flushed 4 t = ((cfg0.win 4).blk t).view.read (Elt Ideal) (outArr m c) := by
  have h99 : t.val % 100 = 99 := (flush0_4 t).mp hf
  show (cfg0.win 4).cut (grid0.coords t) ((dats m 0 c).after 4 t) = _
  rw [after0_4, block_at_last m c t h99]
  refine const_block c t (outArr m c) _ fun i hi => ?_
  unfold outArr
  exact congrArg _ (Fin.ext hi)

/-- An index of the output array is in point `t`'s block iff each coordinate is in the block's range on its axis. -/
theorem mem_blk (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v2).slice (win0_4.rect t)).set ↔ _
  rw [View.set_slice_whole, Rect.mem_set_unit]
  exact Iff.rfl

/-- Every entry of the output array is written back by its batch's last block. -/
theorem cover (i : S2x1x1.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hlt : 100 * (i 0).val + 99 < cfg0.N := by rw [show cfg0.N = 200 from N_0]; omega
  obtain ⟨t, ht⟩ : ∃ t : Fin cfg0.N, t.val = 100 * (i 0).val + 99 := ⟨⟨_, hlt⟩, rfl⟩
  refine ⟨t, (flush0_4 t).mpr (by rw [ht]; omega), ?_⟩
  rw [mem_blk]
  obtain ⟨e0, e1, e2⟩ := index4 t
  intro a
  match a with
  | ⟨0, _⟩ => show win0_4.index t 0 * 1 ≤ (i 0).val ∧ (i 0).val < win0_4.index t 0 * 1 + 1; rw [e0, ht]; omega
  | ⟨1, _⟩ => show win0_4.index t 1 * 1 ≤ (i 1).val ∧ (i 1).val < win0_4.index t 1 * 1 + 1; rw [e1]; omega
  | ⟨2, _⟩ => show win0_4.index t 2 * 1 ≤ (i 2).val ∧ (i 2).val < win0_4.index t 2 * 1 + 1; rw [e2]; omega

/-- So the output array ends holding the two totals. -/
theorem final_out (c : Dev nD) : (dats m 0 c).arrAt 4 cfg0.N = outArr m c :=
  (dats m 0 c).arrAt_eq_of_cover 4 (outArr m c) (flushed_eq m c) (cover)

/-- The program's result: entry `n` is batch `n`'s total. -/
def result (c : Dev nD) : Buf (Elt Ideal) ((c : Thread nD τ).loc main_v3) :=
  fun j => total (argP m c) (argV m c) (argN m c) (argR m c) ⟨(j 0).val, (j 0).isLt⟩

/-- The last line reshapes the output array to the result. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = outArr m c :=
    (Pipeline.withArrays_arr spec0 launch0.win.arr_inj c _ _ 4).trans (final_out m c)
  funext j
  show shapeCast S2 (Pipeline.withArrays (cfgs 0).spec c (V0 m c) (fun w => (dats m 0 c).arrAt w (cfgs 0).N) (Proc.tc.devRef main_v2))
    Facts₀.shapeCasts_S2x1x1_S2 j = result m c j
  rw [e]
  obtain ⟨n, rfl⟩ : ∃ n : Fin 2, j = ix1 n := ⟨j 0, eq_ix1 j⟩
  refine (shapeCast_apply (outArr m c) Facts₀.shapeCasts_S2x1x1_S2 (ix1 n) (ix3 n 0 0) ?_).trans rfl
  show (S2x1x1.rowMajor (ix3 n 0 0)).val = (S2.rowMajor (ix1 n)).val
  rw [Shape.rowMajor_val_three, Shape.rowMajor_val_one]
  show (n.val * 1 + 0) * 1 + 0 = n.val
  omega

/-- THE KERNEL PROGRAM'S RUN, READ: every weakly fair execution terminates with the result at the two batch totals
    and the four arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Result

end
-- ==== Proof.lean ====
/-
  The kernel and its reference compute, for each of two batches, the sum over the batch's 100000 points of the
  squared signed distance of the point to a surface given by sixty neighbours per point: the neighbours' quartic
  weights `((1 - d/r)^2)^2` inside their support radii (a small constant outside), and the weighted mean of the
  offsets' projections on the neighbours' normals.

  The reference takes each sum whole. The kernel first exchanges the last two axes of the neighbours and of the
  normals, then walks a batch in 100 blocks of 1000 points, forming each block's sum from the four blocks it is
  handed and adding it to a running sum it carries from block to block — set to zero at a batch's first block, copied
  to the output at its last — and finally reshapes the [2, 1, 1] output to [2].

  At the ideal instance the two agree index by index: per point both apply the same operations to the same
  entries of the arguments (the exchange of axes only moves where an entry is read from), and a sum over 100000
  points is the sum over 100 consecutive blocks of the blocks' sums, because addition of extended reals commutes and
  associates; no other law is used, so the inputs' finiteness is never opened. The idealization rewrote nothing.
-/
import proofs.«114096_j75806172774865_1_alg».proof.Defs
import proofs.«114096_j75806172774865_1_alg».proof.Proof.Gen.Kernel
import proofs.«114096_j75806172774865_1_alg».proof.Proof.Gen.Kernel.Skeleton
import proofs.«114096_j75806172774865_1_alg».proof.Proof.Gen.Kernel.Launch
import proofs.«114096_j75806172774865_1_alg».proof.Proof.Gen.Kernel.Points
import proofs.«114096_j75806172774865_1_alg».proof.Proof.Gen.Kernel.Frame
import proofs.«114096_j75806172774865_1_alg».proof.Proof.Gen.KernelIdeal
import proofs.«114096_j75806172774865_1_alg».proof.Proof.Gen.KernelIdeal.Skeleton
import proofs.«114096_j75806172774865_1_alg».proof.Proof.Gen.KernelIdeal.Launch
import proofs.«114096_j75806172774865_1_alg».proof.Proof.Gen.KernelIdeal.Points
import proofs.«114096_j75806172774865_1_alg».proof.Proof.Gen.KernelIdeal.Frame
import proofs.«114096_j75806172774865_1_alg».proof.Proof.Gen.ReferenceIdeal
import proofs.«114096_j75806172774865_1_alg».proof.Proof.Gen.Pre_finite_inputs
import proofs.«114096_j75806172774865_1_alg».proof.Proof.Gen.ReferenceIdeal.Run
import proofs.«114096_j75806172774865_1_alg».proof.Proof.Gen.ReferenceIdeal.Read
import proofs.«114096_j75806172774865_1_alg».proof.Proof.RefValue
import proofs.«114096_j75806172774865_1_alg».proof.Proof.Result
import Idealize.ShloMosaic.Adequacy
import Idealize.ShloMosaic.Init

noncomputable section

namespace Cert.Proof

open Idealize.ShloMosaic Idealize.ShloMosaic.ValueIdx Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program ends with entry `n` of its result at batch `n`'s total taken block by
    block, the reference with entry `n` at the same total taken whole. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  funext j
  obtain ⟨n, rfl⟩ : ∃ n : Fin 2, j = ix1 n := ⟨j 0, eq_ix1 j⟩
  exact Cert.ReferenceIdeal.RefValue.ref_total _ _ _ _ n

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
